-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S16384x1024 .f32) (main_arg5 : FVec F S4096x1024 .f32) (main_arg6 : FVec F S4096x1024 .f32) (main_arg7 : FVec F S4096 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S4096x1024 .f32) (main_arg6 : FVec F S4096x1024 .f32) (main_arg7 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096x1024, .bf16⟩
  | .hbm, ⟨9, _⟩ => ⟨S4096x1024, .bf16⟩
  | .hbm, ⟨10, _⟩ => ⟨S1x4096, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S4096x1024, .bf16⟩
  | .local _ .vmem, ⟨11, _⟩ => ⟨S4096x1024, .bf16⟩
  | .local _ .vmem, ⟨12, _⟩ => ⟨S1x4096, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x1024.size a ≤ S4096x1024.size a
  hwx0_6 : ∀ i : grid0.Coords, EltTy.bits .bf16 = 32 ∨ (Rect.block (s := S4096x1024) S4096x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S16384x1024.size a
  hwx0_10 : ∀ i : grid0.Coords, EltTy.bits .f32 = 32 ∨ (Rect.block (s := S16384x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S16384x1024.size a
  hwx0_11 : ∀ i : grid0.Coords, EltTy.bits .f32 = 32 ∨ (Rect.block (s := S16384x1024) S128x1024.size (cc0_transform_11 i) (hinb0_11 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4096x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S1024x4096, .f32⟩
  | .hbm, ⟨9, _⟩ => ⟨S16384x4096, .f32⟩
  | .hbm, ⟨10, _⟩ => ⟨S1024x4096, .f32⟩
  | .hbm, ⟨11, _⟩ => ⟨S16384x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.Cell.lean ====
/-
  The stabilised sLSTM cell, one state entry at a time, and the four state arrays a step produces, as functions of
  the argument arrays.

  For a batch row `r` and a gate column `j` the pre-activation is
      gate r j = (Σ_k x[r,k] · Wx[j,k] + Σ_k h[r,k] · Wh[j,k]) + b[j],
  the two contractions running over the 1024 input (hidden) features against the weights in their [4H, K] layout.
  The four gates of hidden unit `q` are the columns `q`, `q + 1024`, `q + 2048`, `q + 3072` (input, forget, cell
  candidate, output). With `ĩ, f̃, z, o` those four pre-activations and `m, c, n` the previous stabiliser, cell and
  normaliser entries:
      m' = max (f̃ + m) ĩ,   f = exp ((f̃ + m) − m'),   i = exp (ĩ − m'),
      c' = f · c + i · tanh z,   n' = f · n + i,   h' = σ(o) · (c' / max |n'| 1).
  Everything is read on the extended reals, where the logistic function IS `1 / (1 + exp (−o))`: that is the one
  place where the two programs spell an operation differently, and `sigmoid_expanded` is the equation between the
  two spellings.
-/
import Idealize.ShloMosaic.PureOps.Ideal.Laws
import Idealize.ShloMosaic.Lib.ValueIdx
import Idealize.ShloMosaic.Lib.IdealHost

noncomputable section

namespace Cert.SLstm

open Idealize.ShloMosaic Idealize.ShloMosaic.ValueIdx
open scoped BigOperators

/-! ## One entry of the cell -/

/-- The literal one both programs clamp the normaliser with. -/
abbrev oneLit : Ideal .f32 := FloatOps.ofBits (F := Ideal) .f32 0x3F800000#32

/-- The new stabiliser: the larger of the shifted forget pre-activation and the input pre-activation. -/
def mNew (it ft mp : Ideal .f32) : Ideal .f32 := FloatOps.maximumf (FloatOps.addf ft mp) it

/-- The stabilised forget gate. -/
def fGate (it ft mp : Ideal .f32) : Ideal .f32 := FloatOps.exp (FloatOps.subf (FloatOps.addf ft mp) (mNew it ft mp))

/-- The stabilised input gate. -/
def iGate (it ft mp : Ideal .f32) : Ideal .f32 := FloatOps.exp (FloatOps.subf it (mNew it ft mp))

/-- The new cell state. -/
def cNew (it ft zg mp cp : Ideal .f32) : Ideal .f32 :=
  FloatOps.addf (FloatOps.mulf (fGate it ft mp) cp) (FloatOps.mulf (iGate it ft mp) (FloatOps.tanh zg))

/-- The new normaliser. -/
def nNew (it ft mp np : Ideal .f32) : Ideal .f32 := FloatOps.addf (FloatOps.mulf (fGate it ft mp) np) (iGate it ft mp)

/-- The new hidden state: the output gate times the cell state over the clamped normaliser. -/
def hNew (it ft zg og mp cp np : Ideal .f32) : Ideal .f32 :=
  FloatOps.mulf (FloatOps.logistic og)
    (FloatOps.divf (cNew it ft zg mp cp) (FloatOps.maximumf (FloatOps.absf (nNew it ft mp np)) oneLit))

/-- On the extended reals the logistic function is its expansion `1 / (1 + exp (−x))`, the ones being the float
    literal one: the literal denotes the real one, and the rest is the definition of the logistic function there. -/
theorem sigmoid_expanded (x : Ideal .f32) :
    FloatOps.hostDivf oneLit (FloatOps.addf oneLit (FloatOps.hostUnary .exp (FloatOps.hostNegf x))) = FloatOps.logistic x := by
  show Ideal.div (Ideal.ofBits .f32 0x3F800000#32) (Ideal.ofBits .f32 0x3F800000#32 + Ideal.exp (-x)) = Ideal.logistic x
  rw [Ideal.ofBits_one_f32]
  rfl

/-! ## The gate pre-activations -/

/-- Gate column `j` of one batch row: the row of `x` against row `j` of `Wx`, plus the row of `h` against row `j` of
    `Wh`, plus the bias. -/
def gate (xr hr : Fin 1024 → EReal) (wx wh : Fin 4096 → Fin 1024 → EReal) (b : Fin 4096 → EReal) (j : Fin 4096) : EReal :=
  (∑ k : Fin 1024, xr k * wx j k + ∑ k : Fin 1024, hr k * wh j k) + b j

/-- The columns of the input, forget, cell-candidate and output gates of hidden unit `q`. -/
abbrev colI (q : Fin 1024) : Fin 4096 := ⟨q.val, by have := q.isLt; omega⟩
abbrev colF (q : Fin 1024) : Fin 4096 := ⟨q.val + 1024, by have := q.isLt; omega⟩
abbrev colZ (q : Fin 1024) : Fin 4096 := ⟨q.val + 2048, by have := q.isLt; omega⟩
abbrev colO (q : Fin 1024) : Fin 4096 := ⟨q.val + 3072, by have := q.isLt; omega⟩

/-! ## The four result arrays -/

abbrev ShState : Shape := ⟨2, ![16384, 1024]⟩
abbrev ShWeight : Shape := ⟨2, ![4096, 1024]⟩
abbrev ShBias : Shape := ⟨1, ![4096]⟩

section arrays

variable (X H C N M : FVec Ideal ShState .f32) (Wx Wh : FVec Ideal ShWeight .f32) (B : FVec Ideal ShBias .f32)

/-- Gate column `j` of batch row `r`, from the whole arrays. -/
def gateAt (r : Fin 16384) (j : Fin 4096) : EReal :=
  gate (fun k => X (ix2 r k)) (fun k => H (ix2 r k)) (fun j k => Wx (ix2 j k)) (fun j k => Wh (ix2 j k)) (fun j => B (ix1 j)) j

/-- The new stabiliser at row `r`, hidden unit `q`. -/
def mAt (r : Fin 16384) (q : Fin 1024) : EReal :=
  mNew (gateAt X H Wx Wh B r (colI q)) (gateAt X H Wx Wh B r (colF q)) (M (ix2 r q))

/-- The new cell state at row `r`, hidden unit `q`. -/
def cAt (r : Fin 16384) (q : Fin 1024) : EReal :=
  cNew (gateAt X H Wx Wh B r (colI q)) (gateAt X H Wx Wh B r (colF q)) (gateAt X H Wx Wh B r (colZ q)) (M (ix2 r q)) (C (ix2 r q))

/-- The new normaliser at row `r`, hidden unit `q`. -/
def nAt (r : Fin 16384) (q : Fin 1024) : EReal :=
  nNew (gateAt X H Wx Wh B r (colI q)) (gateAt X H Wx Wh B r (colF q)) (M (ix2 r q)) (N (ix2 r q))

/-- The new hidden state at row `r`, hidden unit `q`. -/
def hAt (r : Fin 16384) (q : Fin 1024) : EReal :=
  hNew (gateAt X H Wx Wh B r (colI q)) (gateAt X H Wx Wh B r (colF q)) (gateAt X H Wx Wh B r (colZ q))
    (gateAt X H Wx Wh B r (colO q)) (M (ix2 r q)) (C (ix2 r q)) (N (ix2 r q))

/-- The four result arrays. -/
def newM : FVec Ideal ShState .f32 := fun i => mAt X H M Wx Wh B (i 0) (i 1)
def newC : FVec Ideal ShState .f32 := fun i => cAt X H C M Wx Wh B (i 0) (i 1)
def newN : FVec Ideal ShState .f32 := fun i => nAt X H N M Wx Wh B (i 0) (i 1)
def newH : FVec Ideal ShState .f32 := fun i => hAt X H C N M Wx Wh B (i 0) (i 1)

end arrays

end Cert.SLstm

end
-- ==== Proof.KernelGate.lean ====
/-
  One grid point of the kernel, read entry by entry on the extended reals.

  The body multiplies the point's 128 rows of `x` (and of `h`) against ALL 4096 rows of the weight matrix, contracting
  the 1024 features on axis 1 of both operands into a zero accumulator, adds the two products and then the bias row
  broadcast down the 128 rows. So entry `(p, j)` of that 128 × 4096 value is the gate pre-activation of the block's
  row `p` at column `j`: the two sums over `k` plus `b[j]` (`gate_block`). The four stored blocks are then the
  cell's four formulas applied to columns `q`, `q + 1024`, `q + 2048`, `q + 3072` of that value and to the blocks of the
  previous stabiliser, cell state and normaliser (`blockM`, `blockC`, `blockN`, `blockH`).
-/
import proofs.«412638_j36507222016550_3_alg».proof.Proof.Gen.KernelIdeal.Value
import proofs.«412638_j36507222016550_3_alg».proof.Proof.Cell
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.SLstm
open scoped BigOperators

/-! ## The contraction's index maps, axis by axis -/

theorem lhs_ax0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_ax1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_ax0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_ax1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- A rank-two index is the pair of its coordinates. -/
theorem idx_eq {n0 n1 : Nat} (f : (⟨2, ![n0, n1]⟩ : Shape).Idx) (a : Fin n0) (b : Fin n1)
    (h0 : (f 0).val = a.val) (h1 : (f 1).val = b.val) : f = ix2 a b :=
  funext fun d => match d with
    | ⟨0, _⟩ => Fin.ext h0
    | ⟨1, _⟩ => Fin.ext h1

/-- The product into a zero accumulator, at row `p` and column `j`: row `p` of the left operand against row `j` of
    the right one, summed over the 1024 contracted features. -/
theorem matmul_row (a : FVec Ideal S128x1024 .bf16) (w : FVec Ideal S4096x1024 .bf16) (p : Fin 128) (j : Fin 4096) :
    matmul dot_S128x1024_S4096x1024_S128x4096_1_1_0_0_n_n none a w (constant S128x4096 .f32 0x00000000#32) (ix2 p j)
      = ∑ k : Fin 1024, a (ix2 p k) * w (ix2 j k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p j) ((contrEquiv1 dot_S128x1024_S4096x1024_S128x4096_1_1_0_0_n_n 1024 rfl rfl).symm k) = ix2 p k := funext fun a => Fin.ext (by
    match a with
    | ⟨0, _⟩ => exact lhs_ax0 _ _
    | ⟨1, _⟩ => exact (lhs_ax1 _ _).trans hk)
  have er : dot_S128x1024_S4096x1024_S128x4096_1_1_0_0_n_n.rhsIdx (ix2 p j) ((contrEquiv1 dot_S128x1024_S4096x1024_S128x4096_1_1_0_0_n_n 1024 rfl rfl).symm k) = ix2 j k := funext fun a => Fin.ext (by
    match a with
    | ⟨0, _⟩ => exact rhs_ax0 _ _
    | ⟨1, _⟩ => exact (rhs_ax1 _ _).trans hk)
  rw [el, er]

/-- The bias row broadcast down the block's rows, at row `p` and column `j`, is `b[j]`. -/
theorem bias_row (b : Vec Ideal S1x4096 .f32) (p : Fin 128) (j : Fin 4096) :
    broadcastTo S128x4096 b broadcasts_S1x4096_S128x4096 (ix2 p j) = b (ix2 0 j) :=
  broadcastTo_apply b broadcasts_S1x4096_S128x4096 (ix2 p j) (ix2 0 j) (fun a => match a with
    | ⟨0, _⟩ => by show 0 = if (1 : Nat) = 1 then 0 else p.val; rw [if_pos rfl]
    | ⟨1, _⟩ => by show j.val = if (4096 : Nat) = 1 then 0 else j.val; rw [if_neg (by decide)])

section block

variable (P0 P1 : Vec Ideal S128x1024 .f32) (P2 P3 : Vec Ideal S4096x1024 .bf16) (P4 : Vec Ideal S1x4096 .f32)

/-- Gate column `j` of the block's row `p`, from the point's loaded blocks. -/
abbrev gateB (p : Fin 128) (j : Fin 4096) : EReal :=
  gate (fun k => P0 (ix2 p k)) (fun k => P1 (ix2 p k)) (fun j k => P2 (ix2 j k)) (fun j k => P3 (ix2 j k)) (fun j => P4 (ix2 0 j)) j

/-- THE GATES OF A POINT: entry `(p, j)` of the summed products plus the bias is the gate pre-activation. The
    narrowing of `x`, `h` to the weights' format is the identity on the extended reals, and the two shape casts are
    to the shape the value already has. -/
theorem gate_block (p : Fin 128) (j : Fin 4096) :
    k0_pay3 (F := Ideal) P0 P1 P2 P3 P4 (ix2 p j) = gateB P0 P1 P2 P3 P4 p j := by
  unfold k0_pay3 gateB gate
  dsimp only
  rw [shapeCast_self, shapeCast_self, shapeCast_self]
  rw [addf_apply, addf_apply, matmul_row, matmul_row, bias_row]
  rfl

/-- The same at any index of the 128 × 4096 value, by its two coordinates. -/
theorem gate_at (i : S128x4096.Idx) :
    k0_pay3 (F := Ideal) P0 P1 P2 P3 P4 i = gateB P0 P1 P2 P3 P4 ⟨(i 0).val, (i 0).isLt⟩ ⟨(i 1).val, (i 1).isLt⟩ :=
  (congrArg (k0_pay3 (F := Ideal) P0 P1 P2 P3 P4) (idx_eq i ⟨(i 0).val, (i 0).isLt⟩ ⟨(i 1).val, (i 1).isLt⟩ rfl rfl)).trans
    (gate_block P0 P1 P2 P3 P4 _ _)

end block

/-! ## The four stored blocks, entry by entry

Each stored block reads the 128 × 4096 gate value at the same row and at its hidden unit's column shifted by 0, 1024,
2048 or 3072, and the blocks of the previous state at the same entry; what it computes from them is the cell's
formula for that output. -/

section cells

variable (P0 P1 : Vec Ideal S128x1024 .f32) (P2 P3 : Vec Ideal S4096x1024 .bf16) (P4 : Vec Ideal S1x4096 .f32)
  (P5 P6 P7 : Vec Ideal S128x1024 .f32)

/-- The stabiliser block: `max (f̃ + m) ĩ`. -/
theorem blockM (p : Fin 128) (q : Fin 1024) :
    Value.E11 (F := Ideal) P0 P1 P2 P3 P4 P5 (ix2 p q)
      = mNew (gateB P0 P1 P2 P3 P4 p (colI q)) (gateB P0 P1 P2 P3 P4 p (colF q)) (P5 (ix2 p q)) := by
  dsimp only [Value.E11]
  simp only [idx_eq (Value.ix11_1 (ix2 p q)) p q rfl rfl]
  simp only [gate_at]
  rfl

/-- The cell-state block: `f · c + i · tanh z`. -/
theorem blockC (p : Fin 128) (q : Fin 1024) :
    Value.E9 (F := Ideal) P0 P1 P2 P3 P4 P5 P6 (ix2 p q)
      = cNew (gateB P0 P1 P2 P3 P4 p (colI q)) (gateB P0 P1 P2 P3 P4 p (colF q)) (gateB P0 P1 P2 P3 P4 p (colZ q)) (P5 (ix2 p q)) (P6 (ix2 p q)) := by
  dsimp only [Value.E9]
  simp only [idx_eq (Value.ix9_1 (ix2 p q)) p q rfl rfl, idx_eq (Value.ix9_3 (ix2 p q)) p q rfl rfl, idx_eq (Value.ix9_5 (ix2 p q)) p q rfl rfl, idx_eq (Value.ix9_8 (ix2 p q)) p q rfl rfl]
  simp only [gate_at]
  rfl

/-- The normaliser block: `f · n + i`. -/
theorem blockN (p : Fin 128) (q : Fin 1024) :
    Value.E10 (F := Ideal) P0 P1 P2 P3 P4 P5 P6 (ix2 p q)
      = nNew (gateB P0 P1 P2 P3 P4 p (colI q)) (gateB P0 P1 P2 P3 P4 p (colF q)) (P5 (ix2 p q)) (P6 (ix2 p q)) := by
  dsimp only [Value.E10]
  simp only [idx_eq (Value.ix10_1 (ix2 p q)) p q rfl rfl, idx_eq (Value.ix10_3 (ix2 p q)) p q rfl rfl, idx_eq (Value.ix10_5 (ix2 p q)) p q rfl rfl, idx_eq (Value.ix10_8 (ix2 p q)) p q rfl rfl]
  simp only [gate_at]
  rfl

/-- The hidden-state block: `σ(o) · (c' / max |n'| 1)`. -/
theorem blockH (p : Fin 128) (q : Fin 1024) :
    Value.E8 (F := Ideal) P0 P1 P2 P3 P4 P5 P6 P7 (ix2 p q)
      = hNew (gateB P0 P1 P2 P3 P4 p (colI q)) (gateB P0 P1 P2 P3 P4 p (colF q)) (gateB P0 P1 P2 P3 P4 p (colZ q)) (gateB P0 P1 P2 P3 P4 p (colO q))
          (P5 (ix2 p q)) (P6 (ix2 p q)) (P7 (ix2 p q)) := by
  dsimp only [Value.E8]
  simp only [idx_eq (Value.ix8_2 (ix2 p q)) p q rfl rfl, idx_eq (Value.ix8_4 (ix2 p q)) p q rfl rfl, idx_eq (Value.ix8_6 (ix2 p q)) p q rfl rfl, idx_eq (Value.ix8_9 (ix2 p q)) p q rfl rfl, idx_eq (Value.ix8_13 (ix2 p q)) p q rfl rfl, idx_eq (Value.ix8_15 (ix2 p q)) p q rfl rfl, idx_eq (Value.ix8_17 (ix2 p q)) p q rfl rfl, idx_eq (Value.ix8_20 (ix2 p q)) p q rfl rfl]
  simp only [gate_at]
  rfl

end cells

end Cert.KernelIdeal.Block

end
-- ==== Proof.KernelArrays.lean ====
/-
  From the blocks the grid points write to the four whole result arrays.

  The grid has 128 points. Point `t` is handed rows `128 t … 128 t + 127` of each of `x, h, c, n, m` and the whole of the
  two weight matrices and of the bias row, and writes back rows `128 t … 128 t + 127` of each of the four results. So
  what it writes back to a result is exactly the block of that result's whole-array function (`Cert.SLstm.newH` …
  `newM`) at those rows: row `p` of the point's gate value is the gate pre-activation of array row `128 t + p`. The 128
  row ranges tile the 16384 rows (row `r` lies in the block of point `r / 128`), so after the run each result array IS
  its function of the arrays the region found.

  Before the region the host has narrowed the two weight matrices to the matmul's operand format — the identity on the
  extended reals — and re-laid the bias vector as a one-row matrix; the last section reads those three arrays back at
  an index, so that the results are stated over the program's arguments themselves.
-/
import proofs.«412638_j36507222016550_3_alg».proof.Proof.KernelGate
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Cert.SLstm Cert.KernelIdeal.Block
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-! ## The index maps, decided over the 128 points -/

/-- Window 0 moves one block of rows per point and never along the features. -/
theorem idx_0 : ∀ t : Fin cfg0.N, win0_0.index t (0 : Fin 2) = t.val ∧ win0_0.index t (1 : Fin 2) = 0 :=
  (by decide +kernel : ∀ t : Fin grid0.N, _)
/-- Window 1 moves one block of rows per point and never along the features. -/
theorem idx_1 : ∀ t : Fin cfg0.N, win0_1.index t (0 : Fin 2) = t.val ∧ win0_1.index t (1 : Fin 2) = 0 :=
  (by decide +kernel : ∀ t : Fin grid0.N, _)
/-- Window 2 moves one block of rows per point and never along the features. -/
theorem idx_2 : ∀ t : Fin cfg0.N, win0_2.index t (0 : Fin 2) = t.val ∧ win0_2.index t (1 : Fin 2) = 0 :=
  (by decide +kernel : ∀ t : Fin grid0.N, _)
/-- Window 3 moves one block of rows per point and never along the features. -/
theorem idx_3 : ∀ t : Fin cfg0.N, win0_3.index t (0 : Fin 2) = t.val ∧ win0_3.index t (1 : Fin 2) = 0 :=
  (by decide +kernel : ∀ t : Fin grid0.N, _)
/-- Window 4 moves one block of rows per point and never along the features. -/
theorem idx_4 : ∀ t : Fin cfg0.N, win0_4.index t (0 : Fin 2) = t.val ∧ win0_4.index t (1 : Fin 2) = 0 :=
  (by decide +kernel : ∀ t : Fin grid0.N, _)
/-- Window 8 moves one block of rows per point and never along the features. -/
theorem idx_8 : ∀ t : Fin cfg0.N, win0_8.index t (0 : Fin 2) = t.val ∧ win0_8.index t (1 : Fin 2) = 0 :=
  (by decide +kernel : ∀ t : Fin grid0.N, _)
/-- Window 9 moves one block of rows per point and never along the features. -/
theorem idx_9 : ∀ t : Fin cfg0.N, win0_9.index t (0 : Fin 2) = t.val ∧ win0_9.index t (1 : Fin 2) = 0 :=
  (by decide +kernel : ∀ t : Fin grid0.N, _)
/-- Window 10 moves one block of rows per point and never along the features. -/
theorem idx_10 : ∀ t : Fin cfg0.N, win0_10.index t (0 : Fin 2) = t.val ∧ win0_10.index t (1 : Fin 2) = 0 :=
  (by decide +kernel : ∀ t : Fin grid0.N, _)
/-- Window 11 moves one block of rows per point and never along the features. -/
theorem idx_11 : ∀ t : Fin cfg0.N, win0_11.index t (0 : Fin 2) = t.val ∧ win0_11.index t (1 : Fin 2) = 0 :=
  (by decide +kernel : ∀ t : Fin grid0.N, _)
/-- Window 5 stays on its one block. -/
theorem idx_5 : ∀ t : Fin cfg0.N, win0_5.index t (0 : Fin 2) = 0 ∧ win0_5.index t (1 : Fin 2) = 0 :=
  (by decide +kernel : ∀ t : Fin grid0.N, _)
/-- Window 6 stays on its one block. -/
theorem idx_6 : ∀ t : Fin cfg0.N, win0_6.index t (0 : Fin 2) = 0 ∧ win0_6.index t (1 : Fin 2) = 0 :=
  (by decide +kernel : ∀ t : Fin grid0.N, _)
/-- Window 7 stays on its one block. -/
theorem idx_7 : ∀ t : Fin cfg0.N, win0_7.index t (0 : Fin 2) = 0 ∧ win0_7.index t (1 : Fin 2) = 0 :=
  (by decide +kernel : ∀ t : Fin grid0.N, _)

theorem point_lt (t : Fin cfg0.N) : t.val < 128 := lt_of_lt_of_eq t.isLt N_0

/-- The array row under row `p` of point `t`'s blocks. -/
abbrev rowOf (t : Fin cfg0.N) (p : Fin 128) : Fin 16384 :=
  ⟨t.val * 128 + p.val, by have := point_lt t; have := p.isLt; omega⟩

/-! ## Each input block, read off its array -/

theorem rows0 (c : Dev nD) (t : Fin cfg0.N) (y : S128x1024.Idx) :
    iblk m c 0 t y = V m c main_arg0 (ix2 (rowOf t ⟨(y 0).val, (y 0).isLt⟩) ⟨(y 1).val, (y 1).isLt⟩) := by
  obtain ⟨e0, e1⟩ := idx_0 t
  have h : ((cfg0.win 0).blk t).view.emb y = ix2 (rowOf t ⟨(y 0).val, (y 0).isLt⟩) ⟨(y 1).val, (y 1).isLt⟩ := by
    funext a; apply Fin.ext
    match a with
    | ⟨0, _⟩ => show win0_0.index t (0 : Fin 2) * 128 + 1 * (y 0).val = t.val * 128 + (y 0).val; omega
    | ⟨1, _⟩ => show win0_0.index t (1 : Fin 2) * 1024 + 1 * (y 1).val = (y 1).val; omega
  exact congrArg (fun i => V m c main_arg0 i) h
theorem rows1 (c : Dev nD) (t : Fin cfg0.N) (y : S128x1024.Idx) :
    iblk m c 1 t y = V m c main_arg1 (ix2 (rowOf t ⟨(y 0).val, (y 0).isLt⟩) ⟨(y 1).val, (y 1).isLt⟩) := by
  obtain ⟨e0, e1⟩ := idx_1 t
  have h : ((cfg0.win 1).blk t).view.emb y = ix2 (rowOf t ⟨(y 0).val, (y 0).isLt⟩) ⟨(y 1).val, (y 1).isLt⟩ := by
    funext a; apply Fin.ext
    match a with
    | ⟨0, _⟩ => show win0_1.index t (0 : Fin 2) * 128 + 1 * (y 0).val = t.val * 128 + (y 0).val; omega
    | ⟨1, _⟩ => show win0_1.index t (1 : Fin 2) * 1024 + 1 * (y 1).val = (y 1).val; omega
  exact congrArg (fun i => V m c main_arg1 i) h
theorem rows2 (c : Dev nD) (t : Fin cfg0.N) (y : S128x1024.Idx) :
    iblk m c 2 t y = V m c main_arg2 (ix2 (rowOf t ⟨(y 0).val, (y 0).isLt⟩) ⟨(y 1).val, (y 1).isLt⟩) := by
  obtain ⟨e0, e1⟩ := idx_2 t
  have h : ((cfg0.win 2).blk t).view.emb y = ix2 (rowOf t ⟨(y 0).val, (y 0).isLt⟩) ⟨(y 1).val, (y 1).isLt⟩ := by
    funext a; apply Fin.ext
    match a with
    | ⟨0, _⟩ => show win0_2.index t (0 : Fin 2) * 128 + 1 * (y 0).val = t.val * 128 + (y 0).val; omega
    | ⟨1, _⟩ => show win0_2.index t (1 : Fin 2) * 1024 + 1 * (y 1).val = (y 1).val; omega
  exact congrArg (fun i => V m c main_arg2 i) h
theorem rows3 (c : Dev nD) (t : Fin cfg0.N) (y : S128x1024.Idx) :
    iblk m c 3 t y = V m c main_arg3 (ix2 (rowOf t ⟨(y 0).val, (y 0).isLt⟩) ⟨(y 1).val, (y 1).isLt⟩) := by
  obtain ⟨e0, e1⟩ := idx_3 t
  have h : ((cfg0.win 3).blk t).view.emb y = ix2 (rowOf t ⟨(y 0).val, (y 0).isLt⟩) ⟨(y 1).val, (y 1).isLt⟩ := by
    funext a; apply Fin.ext
    match a with
    | ⟨0, _⟩ => show win0_3.index t (0 : Fin 2) * 128 + 1 * (y 0).val = t.val * 128 + (y 0).val; omega
    | ⟨1, _⟩ => show win0_3.index t (1 : Fin 2) * 1024 + 1 * (y 1).val = (y 1).val; omega
  exact congrArg (fun i => V m c main_arg3 i) h
theorem rows4 (c : Dev nD) (t : Fin cfg0.N) (y : S128x1024.Idx) :
    iblk m c 4 t y = V m c main_arg4 (ix2 (rowOf t ⟨(y 0).val, (y 0).isLt⟩) ⟨(y 1).val, (y 1).isLt⟩) := by
  obtain ⟨e0, e1⟩ := idx_4 t
  have h : ((cfg0.win 4).blk t).view.emb y = ix2 (rowOf t ⟨(y 0).val, (y 0).isLt⟩) ⟨(y 1).val, (y 1).isLt⟩ := by
    funext a; apply Fin.ext
    match a with
    | ⟨0, _⟩ => show win0_4.index t (0 : Fin 2) * 128 + 1 * (y 0).val = t.val * 128 + (y 0).val; omega
    | ⟨1, _⟩ => show win0_4.index t (1 : Fin 2) * 1024 + 1 * (y 1).val = (y 1).val; omega
  exact congrArg (fun i => V m c main_arg4 i) h
theorem whole5 (c : Dev nD) (t : Fin cfg0.N) (y : S4096x1024.Idx) : iblk m c 5 t y = V m c main_v0 y := by
  obtain ⟨e0, e1⟩ := idx_5 t
  have h : ((cfg0.win 5).blk t).view.emb y = y := by
    funext a; apply Fin.ext
    match a with
    | ⟨0, _⟩ => show win0_5.index t (0 : Fin 2) * 4096 + 1 * (y 0).val = (y 0).val; omega
    | ⟨1, _⟩ => show win0_5.index t (1 : Fin 2) * 1024 + 1 * (y 1).val = (y 1).val; omega
  exact congrArg (fun i => V m c main_v0 i) h
theorem whole6 (c : Dev nD) (t : Fin cfg0.N) (y : S4096x1024.Idx) : iblk m c 6 t y = V m c main_v1 y := by
  obtain ⟨e0, e1⟩ := idx_6 t
  have h : ((cfg0.win 6).blk t).view.emb y = y := by
    funext a; apply Fin.ext
    match a with
    | ⟨0, _⟩ => show win0_6.index t (0 : Fin 2) * 4096 + 1 * (y 0).val = (y 0).val; omega
    | ⟨1, _⟩ => show win0_6.index t (1 : Fin 2) * 1024 + 1 * (y 1).val = (y 1).val; omega
  exact congrArg (fun i => V m c main_v1 i) h
theorem whole7 (c : Dev nD) (t : Fin cfg0.N) (y : S1x4096.Idx) : iblk m c 7 t y = V m c main_v2 y := by
  obtain ⟨e0, e1⟩ := idx_7 t
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 4096 + 1 * (y 1).val = (y 1).val; omega
  exact congrArg (fun i => V m c main_v2 i) h

/-! ## Where an output block's entry lands in its array -/

theorem lands8 (t : Fin cfg0.N) (y : S128x1024.Idx) :
    ((cfg0.win 8).blk t).view.emb y = ix2 (rowOf t ⟨(y 0).val, (y 0).isLt⟩) ⟨(y 1).val, (y 1).isLt⟩ := by
  obtain ⟨e0, e1⟩ := idx_8 t
  funext a; apply Fin.ext
  match a with
  | ⟨0, _⟩ => show win0_8.index t (0 : Fin 2) * 128 + 1 * (y 0).val = t.val * 128 + (y 0).val; omega
  | ⟨1, _⟩ => show win0_8.index t (1 : Fin 2) * 1024 + 1 * (y 1).val = (y 1).val; omega
theorem lands9 (t : Fin cfg0.N) (y : S128x1024.Idx) :
    ((cfg0.win 9).blk t).view.emb y = ix2 (rowOf t ⟨(y 0).val, (y 0).isLt⟩) ⟨(y 1).val, (y 1).isLt⟩ := by
  obtain ⟨e0, e1⟩ := idx_9 t
  funext a; apply Fin.ext
  match a with
  | ⟨0, _⟩ => show win0_9.index t (0 : Fin 2) * 128 + 1 * (y 0).val = t.val * 128 + (y 0).val; omega
  | ⟨1, _⟩ => show win0_9.index t (1 : Fin 2) * 1024 + 1 * (y 1).val = (y 1).val; omega
theorem lands10 (t : Fin cfg0.N) (y : S128x1024.Idx) :
    ((cfg0.win 10).blk t).view.emb y = ix2 (rowOf t ⟨(y 0).val, (y 0).isLt⟩) ⟨(y 1).val, (y 1).isLt⟩ := by
  obtain ⟨e0, e1⟩ := idx_10 t
  funext a; apply Fin.ext
  match a with
  | ⟨0, _⟩ => show win0_10.index t (0 : Fin 2) * 128 + 1 * (y 0).val = t.val * 128 + (y 0).val; omega
  | ⟨1, _⟩ => show win0_10.index t (1 : Fin 2) * 1024 + 1 * (y 1).val = (y 1).val; omega
theorem lands11 (t : Fin cfg0.N) (y : S128x1024.Idx) :
    ((cfg0.win 11).blk t).view.emb y = ix2 (rowOf t ⟨(y 0).val, (y 0).isLt⟩) ⟨(y 1).val, (y 1).isLt⟩ := by
  obtain ⟨e0, e1⟩ := idx_11 t
  funext a; apply Fin.ext
  match a with
  | ⟨0, _⟩ => show win0_11.index t (0 : Fin 2) * 128 + 1 * (y 0).val = t.val * 128 + (y 0).val; omega
  | ⟨1, _⟩ => show win0_11.index t (1 : Fin 2) * 1024 + 1 * (y 1).val = (y 1).val; omega

/-! ## The arrays the region finds -/

abbrev aX (c : Dev nD) : FVec Ideal ShState .f32 := V m c main_arg0
abbrev aH (c : Dev nD) : FVec Ideal ShState .f32 := V m c main_arg1
abbrev aC (c : Dev nD) : FVec Ideal ShState .f32 := V m c main_arg2
abbrev aN (c : Dev nD) : FVec Ideal ShState .f32 := V m c main_arg3
abbrev aM (c : Dev nD) : FVec Ideal ShState .f32 := V m c main_arg4
/-- The narrowed weight matrices, as the host left them. -/
abbrev aWx (c : Dev nD) : FVec Ideal ShWeight .f32 := V m c main_v0
abbrev aWh (c : Dev nD) : FVec Ideal ShWeight .f32 := V m c main_v1
/-- The bias, read through the one-row matrix the host re-laid it as. -/
abbrev aB (c : Dev nD) : FVec Ideal ShBias .f32 := fun i => V m c main_v2 (ix2 0 (i 0))

/-! ## What a point writes back, and the array after the run -/

/-- WHAT POINT `t` WRITES BACK to the hidden state's array is rows `128 t … 128 t + 127` of its whole-array function. -/
theorem flushed8_eq (c : Dev nD) (t : Fin cfg0.N) :
    (dats m 0 c).flushed 8 t = ((cfg0.win 8).blk t).view.read (Elt Ideal) (newH (aX m c) (aH m c) (aC m c) (aN m c) (aM m c) (aWx m c) (aWh m c) (aB m c)) := by
  rw [Value.flushed8]
  unfold out0_8
  simp only [View.ld_unit_zero (S := S128x1024) zero_off, View.ld_unit_zero (S := S4096x1024) zero_off,
    View.ld_unit_zero (S := S1x4096) zero_off]
  funext y
  refine (Value.canon8_eq (iblk m c 0 t) (iblk m c 1 t) (iblk m c 5 t) (iblk m c 6 t) (iblk m c 7 t) (iblk m c 4 t) (iblk m c 2 t) (iblk m c 3 t) y).trans ?_
  obtain ⟨p, q, rfl⟩ : ∃ (p : Fin 128) (q : Fin 1024), y = ix2 p q := ⟨y 0, y 1, eq_ix2 y⟩
  refine (blockH (iblk m c 0 t) (iblk m c 1 t) (iblk m c 5 t) (iblk m c 6 t) (iblk m c 7 t) (iblk m c 4 t) (iblk m c 2 t) (iblk m c 3 t) p q).trans ?_
  show _ = newH (aX m c) (aH m c) (aC m c) (aN m c) (aM m c) (aWx m c) (aWh m c) (aB m c) (((cfg0.win 8).blk t).view.emb (ix2 p q))
  rw [lands8]
  show _ = hAt (aX m c) (aH m c) (aC m c) (aN m c) (aM m c) (aWx m c) (aWh m c) (aB m c) (rowOf t p) q
  unfold hAt gateAt gateB
  simp only [rows0 m c t, rows1 m c t, rows2 m c t, rows3 m c t, rows4 m c t, whole5 m c t, whole6 m c t, whole7 m c t]

/-- An index of the array is in point `t`'s block iff each coordinate is in the block's range on its axis. -/
theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v3_0).slice (win0_8.rect t)).set ↔ _
  rw [View.set_slice_whole, Rect.mem_set_unit]
  exact Iff.rfl

/-- Row `r` lies in the block of point `r / 128`: the 128 blocks cover the array. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have ht : (i 0).val / 128 < cfg0.N := by show _ < grid0.N; rw [N_0]; omega
  obtain ⟨e0, e1⟩ := idx_8 ⟨(i 0).val / 128, ht⟩
  refine ⟨⟨(i 0).val / 128, ht⟩, flush0_8 _, ?_⟩
  rw [mem_blk8]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, ht⟩ (1 : Fin 2) * 1024 ≤ (i 1).val ∧ (i 1).val < win0_8.index ⟨(i 0).val / 128, ht⟩ (1 : Fin 2) * 1024 + 1024
    rw [e1]; omega

/-- THE ARRAY after the run is the hidden state's whole-array function of the arrays the region found. -/
theorem final8 (c : Dev nD) : (dats m 0 c).arrAt 8 cfg0.N = newH (aX m c) (aH m c) (aC m c) (aN m c) (aM m c) (aWx m c) (aWh m c) (aB m c) :=
  (dats m 0 c).arrAt_eq_of_cover 8 (newH (aX m c) (aH m c) (aC m c) (aN m c) (aM m c) (aWx m c) (aWh m c) (aB m c)) (fun t _ => flushed8_eq m c t) cover8

/-- WHAT POINT `t` WRITES BACK to the cell state's array is rows `128 t … 128 t + 127` of its whole-array function. -/
theorem flushed9_eq (c : Dev nD) (t : Fin cfg0.N) :
    (dats m 0 c).flushed 9 t = ((cfg0.win 9).blk t).view.read (Elt Ideal) (newC (aX m c) (aH m c) (aC m c) (aM m c) (aWx m c) (aWh m c) (aB m c)) := by
  rw [Value.flushed9]
  unfold out0_9
  simp only [View.ld_unit_zero (S := S128x1024) zero_off, View.ld_unit_zero (S := S4096x1024) zero_off,
    View.ld_unit_zero (S := S1x4096) zero_off]
  funext y
  refine (Value.canon9_eq (iblk m c 0 t) (iblk m c 1 t) (iblk m c 5 t) (iblk m c 6 t) (iblk m c 7 t) (iblk m c 4 t) (iblk m c 2 t) y).trans ?_
  obtain ⟨p, q, rfl⟩ : ∃ (p : Fin 128) (q : Fin 1024), y = ix2 p q := ⟨y 0, y 1, eq_ix2 y⟩
  refine (blockC (iblk m c 0 t) (iblk m c 1 t) (iblk m c 5 t) (iblk m c 6 t) (iblk m c 7 t) (iblk m c 4 t) (iblk m c 2 t) p q).trans ?_
  show _ = newC (aX m c) (aH m c) (aC m c) (aM m c) (aWx m c) (aWh m c) (aB m c) (((cfg0.win 9).blk t).view.emb (ix2 p q))
  rw [lands9]
  show _ = cAt (aX m c) (aH m c) (aC m c) (aM m c) (aWx m c) (aWh m c) (aB m c) (rowOf t p) q
  unfold cAt gateAt gateB
  simp only [rows0 m c t, rows1 m c t, rows2 m c t, rows3 m c t, rows4 m c t, whole5 m c t, whole6 m c t, whole7 m c t]

/-- An index of the array is in point `t`'s block iff each coordinate is in the block's range on its axis. -/
theorem mem_blk9 (t : Fin cfg0.N) (i : S16384x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v3_1).slice (win0_9.rect t)).set ↔ _
  rw [View.set_slice_whole, Rect.mem_set_unit]
  exact Iff.rfl

/-- Row `r` lies in the block of point `r / 128`: the 128 blocks cover the array. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  have ht : (i 0).val / 128 < cfg0.N := by show _ < grid0.N; rw [N_0]; omega
  obtain ⟨e0, e1⟩ := idx_9 ⟨(i 0).val / 128, ht⟩
  refine ⟨⟨(i 0).val / 128, ht⟩, flush0_9 _, ?_⟩
  rw [mem_blk9]
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val ∧ (i 1).val < win0_9.index ⟨(i 0).val / 128, ht⟩ (1 : Fin 2) * 1024 + 1024
    rw [e1]; omega

/-- THE ARRAY after the run is the cell state's whole-array function of the arrays the region found. -/
theorem final9 (c : Dev nD) : (dats m 0 c).arrAt 9 cfg0.N = newC (aX m c) (aH m c) (aC m c) (aM m c) (aWx m c) (aWh m c) (aB m c) :=
  (dats m 0 c).arrAt_eq_of_cover 9 (newC (aX m c) (aH m c) (aC m c) (aM m c) (aWx m c) (aWh m c) (aB m c)) (fun t _ => flushed9_eq m c t) cover9

/-- WHAT POINT `t` WRITES BACK to the normaliser's array is rows `128 t … 128 t + 127` of its whole-array function. -/
theorem flushed10_eq (c : Dev nD) (t : Fin cfg0.N) :
    (dats m 0 c).flushed 10 t = ((cfg0.win 10).blk t).view.read (Elt Ideal) (newN (aX m c) (aH m c) (aN m c) (aM m c) (aWx m c) (aWh m c) (aB m c)) := by
  rw [Value.flushed10]
  unfold out0_10
  simp only [View.ld_unit_zero (S := S128x1024) zero_off, View.ld_unit_zero (S := S4096x1024) zero_off,
    View.ld_unit_zero (S := S1x4096) zero_off]
  funext y
  refine (Value.canon10_eq (iblk m c 0 t) (iblk m c 1 t) (iblk m c 5 t) (iblk m c 6 t) (iblk m c 7 t) (iblk m c 4 t) (iblk m c 3 t) y).trans ?_
  obtain ⟨p, q, rfl⟩ : ∃ (p : Fin 128) (q : Fin 1024), y = ix2 p q := ⟨y 0, y 1, eq_ix2 y⟩
  refine (blockN (iblk m c 0 t) (iblk m c 1 t) (iblk m c 5 t) (iblk m c 6 t) (iblk m c 7 t) (iblk m c 4 t) (iblk m c 3 t) p q).trans ?_
  show _ = newN (aX m c) (aH m c) (aN m c) (aM m c) (aWx m c) (aWh m c) (aB m c) (((cfg0.win 10).blk t).view.emb (ix2 p q))
  rw [lands10]
  show _ = nAt (aX m c) (aH m c) (aN m c) (aM m c) (aWx m c) (aWh m c) (aB m c) (rowOf t p) q
  unfold nAt gateAt gateB
  simp only [rows0 m c t, rows1 m c t, rows2 m c t, rows3 m c t, rows4 m c t, whole5 m c t, whole6 m c t, whole7 m c t]

/-- An index of the array is in point `t`'s block iff each coordinate is in the block's range on its axis. -/
theorem mem_blk10 (t : Fin cfg0.N) (i : S16384x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v3_2).slice (win0_10.rect t)).set ↔ _
  rw [View.set_slice_whole, Rect.mem_set_unit]
  exact Iff.rfl

/-- Row `r` lies in the block of point `r / 128`: the 128 blocks cover the array. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  have ht : (i 0).val / 128 < cfg0.N := by show _ < grid0.N; rw [N_0]; omega
  obtain ⟨e0, e1⟩ := idx_10 ⟨(i 0).val / 128, ht⟩
  refine ⟨⟨(i 0).val / 128, ht⟩, flush0_10 _, ?_⟩
  rw [mem_blk10]
  intro a
  match a with
  | ⟨0, _⟩ =>
    show win0_10.index ⟨(i 0).val / 128, ht⟩ (0 : Fin 2) * 128 ≤ (i 0).val ∧ (i 0).val < win0_10.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, ht⟩ (1 : Fin 2) * 1024 ≤ (i 1).val ∧ (i 1).val < win0_10.index ⟨(i 0).val / 128, ht⟩ (1 : Fin 2) * 1024 + 1024
    rw [e1]; omega

/-- THE ARRAY after the run is the normaliser's whole-array function of the arrays the region found. -/
theorem final10 (c : Dev nD) : (dats m 0 c).arrAt 10 cfg0.N = newN (aX m c) (aH m c) (aN m c) (aM m c) (aWx m c) (aWh m c) (aB m c) :=
  (dats m 0 c).arrAt_eq_of_cover 10 (newN (aX m c) (aH m c) (aN m c) (aM m c) (aWx m c) (aWh m c) (aB m c)) (fun t _ => flushed10_eq m c t) cover10

/-- WHAT POINT `t` WRITES BACK to the stabiliser's array is rows `128 t … 128 t + 127` of its whole-array function. -/
theorem flushed11_eq (c : Dev nD) (t : Fin cfg0.N) :
    (dats m 0 c).flushed 11 t = ((cfg0.win 11).blk t).view.read (Elt Ideal) (newM (aX m c) (aH m c) (aM m c) (aWx m c) (aWh m c) (aB m c)) := by
  rw [Value.flushed11]
  unfold out0_11
  simp only [View.ld_unit_zero (S := S128x1024) zero_off, View.ld_unit_zero (S := S4096x1024) zero_off,
    View.ld_unit_zero (S := S1x4096) zero_off]
  funext y
  refine (Value.canon11_eq (iblk m c 0 t) (iblk m c 1 t) (iblk m c 5 t) (iblk m c 6 t) (iblk m c 7 t) (iblk m c 4 t) y).trans ?_
  obtain ⟨p, q, rfl⟩ : ∃ (p : Fin 128) (q : Fin 1024), y = ix2 p q := ⟨y 0, y 1, eq_ix2 y⟩
  refine (blockM (iblk m c 0 t) (iblk m c 1 t) (iblk m c 5 t) (iblk m c 6 t) (iblk m c 7 t) (iblk m c 4 t) p q).trans ?_
  show _ = newM (aX m c) (aH m c) (aM m c) (aWx m c) (aWh m c) (aB m c) (((cfg0.win 11).blk t).view.emb (ix2 p q))
  rw [lands11]
  show _ = mAt (aX m c) (aH m c) (aM m c) (aWx m c) (aWh m c) (aB m c) (rowOf t p) q
  unfold mAt gateAt gateB
  simp only [rows0 m c t, rows1 m c t, rows2 m c t, rows3 m c t, rows4 m c t, whole5 m c t, whole6 m c t, whole7 m c t]

/-- An index of the array is in point `t`'s block iff each coordinate is in the block's range on its axis. -/
theorem mem_blk11 (t : Fin cfg0.N) (i : S16384x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v3_3).slice (win0_11.rect t)).set ↔ _
  rw [View.set_slice_whole, Rect.mem_set_unit]
  exact Iff.rfl

/-- Row `r` lies in the block of point `r / 128`: the 128 blocks cover the array. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  have ht : (i 0).val / 128 < cfg0.N := by show _ < grid0.N; rw [N_0]; omega
  obtain ⟨e0, e1⟩ := idx_11 ⟨(i 0).val / 128, ht⟩
  refine ⟨⟨(i 0).val / 128, ht⟩, flush0_11 _, ?_⟩
  rw [mem_blk11]
  intro a
  match a with
  | ⟨0, _⟩ =>
    show win0_11.index ⟨(i 0).val / 128, ht⟩ (0 : Fin 2) * 128 ≤ (i 0).val ∧ (i 0).val < win0_11.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_11.index ⟨(i 0).val / 128, ht⟩ (1 : Fin 2) * 1024 ≤ (i 1).val ∧ (i 1).val < win0_11.index ⟨(i 0).val / 128, ht⟩ (1 : Fin 2) * 1024 + 1024
    rw [e1]; omega

/-- THE ARRAY after the run is the stabiliser's whole-array function of the arrays the region found. -/
theorem final11 (c : Dev nD) : (dats m 0 c).arrAt 11 cfg0.N = newM (aX m c) (aH m c) (aM m c) (aWx m c) (aWh m c) (aB m c) :=
  (dats m 0 c).arrAt_eq_of_cover 11 (newM (aX m c) (aH m c) (aM m c) (aWx m c) (aWh m c) (aB m c)) (fun t _ => flushed11_eq m c t) cover11

/-! ## The host's three operations before the region, read back -/

/-- The narrowing of `Wx` to the matmul's operand format is the identity on the extended reals. -/
theorem wx_found (c : Dev nD) : aWx m c = (m ((c : Thread nD τ).loc main_arg5)) := by
  have e : @Eq (FVec Ideal S4096x1024 .bf16) (V m c main_v0) (truncf .bf16 ((m ((c : Thread nD τ).loc main_arg5)) : FVec Ideal S4096x1024 .f32) bitsLt_bf16_f32) := by
    dsimp only [V, hostOps0]; after_results
  exact e

/-- The same for `Wh`. -/
theorem wh_found (c : Dev nD) : aWh m c = (m ((c : Thread nD τ).loc main_arg6)) := by
  have e : @Eq (FVec Ideal S4096x1024 .bf16) (V m c main_v1) (truncf .bf16 ((m ((c : Thread nD τ).loc main_arg6)) : FVec Ideal S4096x1024 .f32) bitsLt_bf16_f32) := by
    dsimp only [V, hostOps0]; after_results
  exact e

/-- Entry `(0, j)` of the bias re-laid as a one-row matrix is `b[j]`: both sit at position `j` in row-major order. -/
theorem b_found (c : Dev nD) : aB m c = (m ((c : Thread nD τ).loc main_arg7)) := by
  have e : (V m c main_v2 : S1x4096.Idx → Elt Ideal .f32) = shapeCast S1x4096 (m ((c : Thread nD τ).loc main_arg7)) shapeCasts_S4096_S1x4096 := by
    dsimp only [V, hostOps0]; after_results; rfl
  funext i
  refine (congrFun e (ix2 0 (i 0))).trans ?_
  exact shapeCast_apply _ shapeCasts_S4096_S1x4096 (ix2 0 (i 0)) i (by
    rw [Shape.rowMajor_val_one, Shape.rowMajor_val_two]
    show (i 0).val = 0 * 4096 + (i 0).val
    omega)

/-! ## The run, read -/

/-- Every weakly fair execution of the kernel program ends with the four result arrays at the cell's four
    whole-array functions of the ARGUMENTS, and the arguments unchanged. -/
theorem run : θ_run defs (onTc (τ := τ) (main (F := Ideal))) ⟨m, fun _ => 0, ρ⟩ fun r => ∀ c : Dev nD,
      r.2.mem ((c : Thread nD τ).loc main_v3_0) = newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v3_1) = newC (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c : Thread nD τ).loc main_v3_2) = newN (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v3_3) = newM (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      (h c).1.trans ((final8 m c).trans (by
        rw [wx_found, wh_found, b_found, show aX m c = (m ((c : Thread nD τ).loc main_arg0)) from V_main_arg0 m c, show aH m c = (m ((c : Thread nD τ).loc main_arg1)) from V_main_arg1 m c,
          show aC m c = (m ((c : Thread nD τ).loc main_arg2)) from V_main_arg2 m c, show aN m c = (m ((c : Thread nD τ).loc main_arg3)) from V_main_arg3 m c, show aM m c = (m ((c : Thread nD τ).loc main_arg4)) from V_main_arg4 m c])),
      (h c).2.1.trans ((final9 m c).trans (by
        rw [wx_found, wh_found, b_found, show aX m c = (m ((c : Thread nD τ).loc main_arg0)) from V_main_arg0 m c, show aH m c = (m ((c : Thread nD τ).loc main_arg1)) from V_main_arg1 m c,
          show aC m c = (m ((c : Thread nD τ).loc main_arg2)) from V_main_arg2 m c, show aM m c = (m ((c : Thread nD τ).loc main_arg4)) from V_main_arg4 m c])),
      (h c).2.2.1.trans ((final10 m c).trans (by
        rw [wx_found, wh_found, b_found, show aX m c = (m ((c : Thread nD τ).loc main_arg0)) from V_main_arg0 m c, show aH m c = (m ((c : Thread nD τ).loc main_arg1)) from V_main_arg1 m c,
          show aN m c = (m ((c : Thread nD τ).loc main_arg3)) from V_main_arg3 m c, show aM m c = (m ((c : Thread nD τ).loc main_arg4)) from V_main_arg4 m c])),
      (h c).2.2.2.1.trans ((final11 m c).trans (by
        rw [wx_found, wh_found, b_found, show aX m c = (m ((c : Thread nD τ).loc main_arg0)) from V_main_arg0 m c, show aH m c = (m ((c : Thread nD τ).loc main_arg1)) from V_main_arg1 m c,
          show aM m c = (m ((c : Thread nD τ).loc main_arg4)) from V_main_arg4 m c])),
      (h c).2.2.2.2⟩)
    (Value.run_blocks m ρ)

end Cert.KernelIdeal.Arrays

end
-- ==== Proof.RefCell.lean ====
/-
  The reference, read entry by entry on the extended reals: its four results are the four whole-array functions of
  the sLSTM cell.

  The reference transposes each weight matrix and contracts `x` (and `h`) against it on the transposed matrix's first
  axis; entry `(r, j)` of such a product is the sum over the 1024 features of `x[r,k]` times the ORIGINAL matrix's
  `[j,k]` — the same sum the gate pre-activation is defined by —, and the bias reaches entry `(r, j)` as `b[j]` through
  two broadcasts. The four slices of that 16384 × 4096 value at column offsets 0, 1024, 2048 and 3072 are the four
  gates of each hidden unit, and from there on the reference is the cell's formulas operation for operation, except
  that it spells the logistic function out as `1 / (1 + exp (−o))` (`Cert.SLstm.sigmoid_expanded`).
-/
import proofs.«412638_j36507222016550_3_alg».proof.Proof.Gen.ReferenceIdeal.Read
import proofs.«412638_j36507222016550_3_alg».proof.Proof.Cell

noncomputable section

namespace Cert.ReferenceIdeal.Cell

open Cert.ReferenceIdeal Cert.ReferenceIdeal.Gen Idealize.ShloMosaic Idealize.ShloMosaic.TcCoe
open Idealize.ShloMosaic.ValueIdx Cert.SLstm
open scoped BigOperators

variable (x0 x1 x2 x3 x4 : (⟨S16384x1024, .f32⟩ : BufTy).Contents (Elt Ideal))
  (x5 x6 : (⟨S4096x1024, .f32⟩ : BufTy).Contents (Elt Ideal)) (x7 : (⟨S4096, .f32⟩ : BufTy).Contents (Elt Ideal))

/-! ## The gate pre-activations -/

/-- Entry `i` of the summed products plus the broadcast bias, `i` being row `r` and column `j`, is the gate
    pre-activation of row `r` at column `j`. -/
theorem gates (i : S16384x4096.Idx) (r : Fin 16384) (j : Fin 4096) (h0 : (i 0).val = r.val) (h1 : (i 1).val = j.val) :
    Read.val_main_v7 (F := Ideal) x0 x1 x5 x6 x7 i = gateAt x0 x1 x5 x6 x7 r j := by
  rw [Read.val_main_v7_apply, Read.val_main_v4_apply, Read.val_main_v1_apply, Read.val_main_v3_apply,
    Read.val_main_v6_apply, Read.val_main_v5_apply]
  simp only [Read.val_main_v0_apply, Read.val_main_v2_apply]
  have e1 : ∀ k, Read.lidx_main_v1 i k = ix2 r k := fun k => funext fun a => by
    match a with
    | ⟨0, _⟩ => exact Fin.ext h0
    | ⟨1, _⟩ => rfl
  have e2 : ∀ k, Read.idx_main_v0 (Read.ridx_main_v1 i k) = ix2 j k := fun k => funext fun a => by
    match a with
    | ⟨0, _⟩ => exact Fin.ext h1
    | ⟨1, _⟩ => rfl
  have e3 : ∀ k, Read.lidx_main_v3 i k = ix2 r k := fun k => funext fun a => by
    match a with
    | ⟨0, _⟩ => exact Fin.ext h0
    | ⟨1, _⟩ => rfl
  have e4 : ∀ k, Read.idx_main_v2 (Read.ridx_main_v3 i k) = ix2 j k := fun k => funext fun a => by
    match a with
    | ⟨0, _⟩ => exact Fin.ext h1
    | ⟨1, _⟩ => rfl
  have e5 : Read.idx_main_v5 (Read.idx_main_v6 i) = ix1 j := funext fun a => by
    match a with
    | ⟨0, _⟩ => exact Fin.ext h1
  simp only [e1, e2, e3, e4, e5]
  rfl

/-- The four slices at a row `r` and hidden unit `q`: the input, forget, cell-candidate and output gates. -/
theorem gateI (r : Fin 16384) (q : Fin 1024) : Read.val_main_v8 (F := Ideal) x0 x1 x5 x6 x7 (ix2 r q) = gateAt x0 x1 x5 x6 x7 r (colI q) := by
  rw [Read.val_main_v8_apply]
  exact gates x0 x1 x5 x6 x7 _ r (colI q) rfl rfl
theorem gateF (r : Fin 16384) (q : Fin 1024) : Read.val_main_v9 (F := Ideal) x0 x1 x5 x6 x7 (ix2 r q) = gateAt x0 x1 x5 x6 x7 r (colF q) := by
  rw [Read.val_main_v9_apply]
  exact gates x0 x1 x5 x6 x7 _ r (colF q) rfl (by show 1024 + q.val = q.val + 1024; omega)
theorem gateZ (r : Fin 16384) (q : Fin 1024) : Read.val_main_v10 (F := Ideal) x0 x1 x5 x6 x7 (ix2 r q) = gateAt x0 x1 x5 x6 x7 r (colZ q) := by
  rw [Read.val_main_v10_apply]
  exact gates x0 x1 x5 x6 x7 _ r (colZ q) rfl (by show 2048 + q.val = q.val + 2048; omega)
theorem gateO (r : Fin 16384) (q : Fin 1024) : Read.val_main_v11 (F := Ideal) x0 x1 x5 x6 x7 (ix2 r q) = gateAt x0 x1 x5 x6 x7 r (colO q) := by
  rw [Read.val_main_v11_apply]
  exact gates x0 x1 x5 x6 x7 _ r (colO q) rfl (by show 3072 + q.val = q.val + 3072; omega)

/-! ## The four results -/

/-- The stabiliser result. -/
theorem resultM : Read.val_main_v13 (F := Ideal) x0 x1 x4 x5 x6 x7 = newM x0 x1 x4 x5 x6 x7 := by
  funext i
  obtain ⟨r, q, rfl⟩ : ∃ (r : Fin 16384) (q : Fin 1024), i = ix2 r q := ⟨i 0, i 1, eq_ix2 i⟩
  rw [Read.val_main_v13_apply, Read.val_main_v12_apply, gateF, gateI]
  rfl

/-- The cell-state result. -/
theorem resultC : Read.val_main_v28 (F := Ideal) x0 x1 x2 x4 x5 x6 x7 = newC x0 x1 x2 x4 x5 x6 x7 := by
  funext i
  obtain ⟨r, q, rfl⟩ : ∃ (r : Fin 16384) (q : Fin 1024), i = ix2 r q := ⟨i 0, i 1, eq_ix2 i⟩
  simp only [Read.val_main_v28_apply, Read.val_main_v26_apply, Read.val_main_v27_apply, Read.val_main_v16_apply,
    Read.val_main_v15_apply, Read.val_main_v14_apply, Read.val_main_v13_apply, Read.val_main_v12_apply,
    Read.val_main_v18_apply, Read.val_main_v17_apply, Read.val_main_v19_apply, gateF, gateI, gateZ]
  rfl

/-- The normaliser result. -/
theorem resultN : Read.val_main_v30 (F := Ideal) x0 x1 x3 x4 x5 x6 x7 = newN x0 x1 x3 x4 x5 x6 x7 := by
  funext i
  obtain ⟨r, q, rfl⟩ : ∃ (r : Fin 16384) (q : Fin 1024), i = ix2 r q := ⟨i 0, i 1, eq_ix2 i⟩
  simp only [Read.val_main_v30_apply, Read.val_main_v29_apply, Read.val_main_v16_apply,
    Read.val_main_v15_apply, Read.val_main_v14_apply, Read.val_main_v13_apply, Read.val_main_v12_apply,
    Read.val_main_v18_apply, Read.val_main_v17_apply, gateF, gateI]
  rfl

/-- The hidden-state result: the output gate arrives spelt out as `1 / (1 + exp (−o))`. -/
theorem resultH : Read.val_main_v35 (F := Ideal) x0 x1 x2 x3 x4 x5 x6 x7 = newH x0 x1 x2 x3 x4 x5 x6 x7 := by
  funext i
  obtain ⟨r, q, rfl⟩ : ∃ (r : Fin 16384) (q : Fin 1024), i = ix2 r q := ⟨i 0, i 1, eq_ix2 i⟩
  simp only [Read.val_main_v35_apply, Read.val_main_v25_apply, Read.val_main_v24_apply, Read.val_main_cst_0_apply,
    Read.val_main_v23_apply, Read.val_main_v22_apply, Read.val_main_cst_apply, Read.val_main_v21_apply,
    Read.val_main_v20_apply, Read.val_main_v34_apply, Read.val_main_v33_apply, Read.val_main_v32_apply,
    Read.val_main_cst_1_apply, Read.val_main_v31_apply,
    Read.val_main_v30_apply, Read.val_main_v29_apply, Read.val_main_v28_apply, Read.val_main_v26_apply,
    Read.val_main_v27_apply, Read.val_main_v16_apply,
    Read.val_main_v15_apply, Read.val_main_v14_apply, Read.val_main_v13_apply, Read.val_main_v12_apply,
    Read.val_main_v18_apply, Read.val_main_v17_apply, Read.val_main_v19_apply, gateF, gateI, gateZ, gateO]
  rw [show FloatOps.ofBits (F := Ideal) .f32 0x3F800000#32 = oneLit from rfl, sigmoid_expanded]
  rfl

end Cert.ReferenceIdeal.Cell

end
-- ==== Proof.lean ====
/-
  One step of a stabilised sLSTM cell as a Pallas kernel, against its jnp reference, over the extended reals.

  Both programs compute, for each of the 16384 batch rows and 1024 hidden units, the four gate pre-activations
      gate[r, j] = (Σ_k x[r,k] · Wx[j,k] + Σ_k h[r,k] · Wh[j,k]) + b[j]      (j = q, q + 1024, q + 2048, q + 3072)
  and from them and the previous stabiliser, cell state and normaliser the new stabiliser `max (f̃ + m) ĩ`, the gates
  `exp ((f̃ + m) − m')` and `exp (ĩ − m')`, the new cell state and normaliser, and the hidden state
  `σ(o) · (c' / max |n'| 1)` (Proof/Cell.lean states these once, as four whole-array functions of the arguments).

  The kernel walks the batch in 128 blocks of 128 rows, contracts each block against the weights in their [4H, K] layout
  after narrowing both operands to the matrix unit's format, and applies the logistic function as one operation; the
  reference transposes the weights, contracts whole arrays and spells the logistic function out. Narrowing is the
  identity on the extended reals, a sum over the features does not depend on which operand was transposed, the 128
  row blocks tile the batch, and the logistic function there IS `1 / (1 + exp (−o))`. So no algebraic law beyond the
  definitions is needed, and the precondition (finite inputs) is never opened: the two programs are the same function of
  every extended-real input.

  Proof/KernelGate.lean reads one grid point entry by entry, Proof/KernelArrays.lean assembles the four result arrays
  from the 128 points, Proof/RefCell.lean reads the reference; here the two runs are set side by side.
-/
import proofs.«412638_j36507222016550_3_alg».proof.Defs
import proofs.«412638_j36507222016550_3_alg».proof.Proof.Gen.Kernel
import proofs.«412638_j36507222016550_3_alg».proof.Proof.Gen.Kernel.Skeleton
import proofs.«412638_j36507222016550_3_alg».proof.Proof.Gen.Kernel.Launch
import proofs.«412638_j36507222016550_3_alg».proof.Proof.Gen.Kernel.Points
import proofs.«412638_j36507222016550_3_alg».proof.Proof.Gen.Kernel.Frame
import proofs.«412638_j36507222016550_3_alg».proof.Proof.Gen.KernelIdeal
import proofs.«412638_j36507222016550_3_alg».proof.Proof.Gen.KernelIdeal.Skeleton
import proofs.«412638_j36507222016550_3_alg».proof.Proof.Gen.KernelIdeal.Launch
import proofs.«412638_j36507222016550_3_alg».proof.Proof.Gen.KernelIdeal.Points
import proofs.«412638_j36507222016550_3_alg».proof.Proof.Gen.KernelIdeal.Frame
import proofs.«412638_j36507222016550_3_alg».proof.Proof.Gen.ReferenceIdeal
import proofs.«412638_j36507222016550_3_alg».proof.Proof.Gen.Pre_finite_inputs
import proofs.«412638_j36507222016550_3_alg».proof.Proof.Gen.KernelIdeal.Value
import proofs.«412638_j36507222016550_3_alg».proof.Proof.Gen.ReferenceIdeal.Run
import proofs.«412638_j36507222016550_3_alg».proof.Proof.Gen.ReferenceIdeal.Read
import proofs.«412638_j36507222016550_3_alg».proof.Proof.KernelArrays
import proofs.«412638_j36507222016550_3_alg».proof.Proof.RefCell
import Idealize.ShloMosaic.Adequacy
import Idealize.ShloMosaic.Init

noncomputable section

namespace Cert.Proof

open Idealize.ShloMosaic Idealize.ShloMosaic.TcCoe Idealize.SL.Sem Cert.SLstm

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing: the kernel on the extended reals is the kernel's own text. -/
theorem preserves : Cert.preserves_Kernel_KernelIdeal := trivial

/-- From memories that agree on the eight arguments both programs end with the same four arrays: the hidden state,
    the cell state, the normaliser and the stabiliser, each the cell's whole-array function of the arguments. -/
theorem algebraic : Cert.algebraic_KernelIdeal_ReferenceIdeal := by
  intro m ρ m' ρ' _ hagree
  refine ⟨fun c => newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [Cert.ReferenceIdeal.Read.val_main_v35_eq, Cert.ReferenceIdeal.Cell.resultH, a0, a1, a2, a3, a4, a5, a6, a7]
  · rw [Cert.ReferenceIdeal.Read.val_main_v28_eq, Cert.ReferenceIdeal.Cell.resultC, a0, a1, a2, a4, a5, a6, a7]
  · rw [Cert.ReferenceIdeal.Read.val_main_v30_eq, Cert.ReferenceIdeal.Cell.resultN, a0, a1, a3, a4, a5, a6, a7]
  · rw [Cert.ReferenceIdeal.Read.val_main_v13_eq, Cert.ReferenceIdeal.Cell.resultM, a0, a1, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
